-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) (main_arg3 : IVec S2048 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .i32⟩
  | .local _ .vmem, ⟨5, _⟩ => ⟨S1024, .i32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  bitsLt_bf16_f32 : FTy.bits .bf16 < FTy.bits .f32
  shapeCasts_S1024_S1x1024 : S1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x2048.size a
  hwx0_1 : ∀ i : grid0.Coords, EltTy.bits .f32 = 32 ∨ (Rect.block (s := S2048x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S2048.size a
  hwx0_2 : ∀ i : grid0.Coords, EltTy.bits .i32 = 32 ∨ (Rect.block (s := S2048) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S2048.size a
  hwx0_3 : ∀ i : grid0.Coords, EltTy.bits .f32 = 32 ∨ (Rect.block (s := S2048) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x2048.size a
  hwx0_4 : ∀ i : grid0.Coords, EltTy.bits .f32 = 32 ∨ (Rect.block (s := S8192x2048) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S2048, .f32⟩
  | .hbm, ⟨5, _⟩ => ⟨S2048x1, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.MaskedDense.lean ====
/-
  A dense layer whose weight rows are switched by an integer mask.

  For an input `X` [8192, 2048], weights `M` [2048, 2048], a bias `b` [2048] and a mask of 2048 integer words, the layer's
  value at row `r` and column `c` is

      (∑ₖ X r k · (mask k · M k c)) + b c

  over the extended reals, the mask word read as a signed integer. This module states that value once, as a function
  of whole arrays, and proves the one law the comparison of a blocked evaluation with it needs: the contraction over
  2048 terms is the sum of its first 1024 terms and of its last 1024 terms, so an accumulator that starts at zero, adds
  the first half, then adds the second half, then adds the bias, ends at the layer's value. Addition of extended reals
  is commutative and associative, and that is all the law uses: no operand has to be finite.
-/
import Idealize.ShloMosaic.PureOps.Ideal
import Idealize.ShloMosaic.PureOps.Ideal.Laws
import Idealize.ShloMosaic.Lib.ValueIdx

noncomputable section

namespace Cert.MaskedDense

open Idealize.ShloMosaic Idealize.ShloMosaic.ValueIdx

/-- A mask word as an extended real: the signed integer it spells. -/
abbrev gate (w : BitVec 32) : EReal := FloatOps.sitofp (F := Ideal) .f32 w

/-- Position `k` of the first half of the contraction axis. -/
abbrev lo (k : Fin 1024) : Fin 2048 := ⟨k.val, by have := k.isLt; omega⟩

/-- Position `k` of the second half of the contraction axis. -/
abbrev hi (k : Fin 1024) : Fin 2048 := ⟨1024 + k.val, by have := k.isLt; omega⟩

/-- The layer's value at row `r`, column `c`. -/
def entry (X : (⟨2, ![8192, 2048]⟩ : Shape).Idx → EReal) (M : (⟨2, ![2048, 2048]⟩ : Shape).Idx → EReal)
    (b : (⟨1, ![2048]⟩ : Shape).Idx → EReal) (mask : (⟨1, ![2048]⟩ : Shape).Idx → BitVec 32)
    (r : Fin 8192) (c : Fin 2048) : EReal :=
  (∑ k : Fin 2048, X (ix2 r k) * (gate (mask (ix1 k)) * M (ix2 k c))) + b (ix1 c)

/-- The layer's value as one array. -/
def dense (X : (⟨2, ![8192, 2048]⟩ : Shape).Idx → EReal) (M : (⟨2, ![2048, 2048]⟩ : Shape).Idx → EReal)
    (b : (⟨1, ![2048]⟩ : Shape).Idx → EReal) (mask : (⟨1, ![2048]⟩ : Shape).Idx → BitVec 32) :
    (⟨2, ![8192, 2048]⟩ : Shape).Idx → EReal :=
  fun i => entry X M b mask (i 0) (i 1)

/-- A sum over 2048 positions is the sum over the first 1024 plus the sum over the last 1024. -/
theorem sum_two_halves (f : Fin 2048 → EReal) : ∑ k : Fin 2048, f k = (∑ k : Fin 1024, f (lo k)) + ∑ k : Fin 1024, f (hi k) :=
  Fin.sum_univ_add (a := 1024) (b := 1024) f

/-- The blocked evaluation ends at the layer's value: from zero, add the products of the first half of row `r` with the
    first half of the masked column `c`, add those of the second halves, add the bias at `c`. The halves are given as
    functions of the position inside the half, each equal to the array read at that position. -/
theorem entry_of_halves (X : (⟨2, ![8192, 2048]⟩ : Shape).Idx → EReal) (M : (⟨2, ![2048, 2048]⟩ : Shape).Idx → EReal)
    (b : (⟨1, ![2048]⟩ : Shape).Idx → EReal) (mask : (⟨1, ![2048]⟩ : Shape).Idx → BitVec 32) (r : Fin 8192) (c : Fin 2048)
    (xa xb wa wb : Fin 1024 → EReal) (ka kb : Fin 1024 → BitVec 32) (β : EReal)
    (hxa : ∀ k, xa k = X (ix2 r (lo k))) (hxb : ∀ k, xb k = X (ix2 r (hi k)))
    (hka : ∀ k, ka k = mask (ix1 (lo k))) (hkb : ∀ k, kb k = mask (ix1 (hi k)))
    (hwa : ∀ k, wa k = M (ix2 (lo k) c)) (hwb : ∀ k, wb k = M (ix2 (hi k) c)) (hβ : β = b (ix1 c)) :
    ((0 + ∑ k : Fin 1024, xa k * (gate (ka k) * wa k)) + ∑ k : Fin 1024, xb k * (gate (kb k) * wb k)) + β
      = entry X M b mask r c := by
  unfold entry
  rw [sum_two_halves, zero_add, hβ]
  have ea : ∑ k : Fin 1024, xa k * (gate (ka k) * wa k) = ∑ k : Fin 1024, X (ix2 r (lo k)) * (gate (mask (ix1 (lo k))) * M (ix2 (lo k) c)) :=
    Finset.sum_congr rfl fun k _ => by rw [hxa, hka, hwa]
  have eb : ∑ k : Fin 1024, xb k * (gate (kb k) * wb k) = ∑ k : Fin 1024, X (ix2 r (hi k)) * (gate (mask (ix1 (hi k))) * M (ix2 (hi k) c)) :=
    Finset.sum_congr rfl fun k _ => by rw [hxb, hkb, hwb]
  rw [ea, eb]

end Cert.MaskedDense

end
-- ==== Proof.Blocks.lean ====
/-
  What the kernel's body computes in one block, read entry by entry over the extended reals.

  The body works on 1024 × 1024 tiles. It has three stored values:
    * the reset: a tile of zeros;
    * the step: the accumulator tile plus the product of an input tile with a weight tile whose row `k` has first been
      multiplied by the mask word at `k` (the mask tile is a vector of 1024 integer words, turned into a column and
      repeated along the columns); the two narrowings to a 16-bit format before the product are the identity over the
      extended reals, and the product into a zero tile is the plain sum over the 1024 positions of the contraction;
    * the closing: the accumulator tile plus the bias tile, a vector of 1024 numbers turned into a row and repeated
      along the rows.
  Each is stated at row `p` and column `q` of the tile.
-/
import proofs.«156901_j83966610637560_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx

/-! ## Two layout steps: a vector as a column, and a column repeated along the columns -/

/-- A vector of `a` entries viewed as an `a × 1` column reads, at `(i, u)`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along `b` columns reads, at `(p, c)`, the column at `p`. -/
theorem column_repeat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A tile product into a zero tile, at row `p` and column `q`: the sum over the 1024 positions `k` of the left tile at
    `(p, k)` times the right tile at `(k, q)`. -/
theorem tile_product_apply (l r : FVec Ideal S1024x1024 .bf16) (p q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The three stored values -/

/-- The reset stores zero everywhere. -/
theorem reset_apply (j : S1024x1024.Idx) : k0_pay1 (F := Ideal) j = 0 := by
  unfold k0_pay1
  rw [shapeCast_self]
  exact Ideal.ofBits_zero_f32

/-- The step, at `(p, q)`: the accumulator there plus `∑ₖ x p k · (mask k · w k q)`. -/
theorem step_apply (kb : Vec Ideal S1024 .i32) (wb xb acc : Vec Ideal S1024x1024 .f32) (p q : Fin 1024) :
    k0_pay2 kb wb xb acc (ix2 p q)
      = acc (ix2 p q) + ∑ k : Fin 1024, xb (ix2 p k) * (FloatOps.sitofp (F := Ideal) .f32 (kb (ix1 k)) * wb (ix2 k q)) := by
  unfold k0_pay2
  rw [shapeCast_self, addf_apply, tile_product_apply]
  refine congrArg (acc (ix2 p q) + ·) (Finset.sum_congr rfl fun k _ => ?_)
  show xb (ix2 p k) * (broadcastTo S1024x1024 (shapeCast S1024x1 (sitofp (F := Ideal) .f32 kb) shapeCasts_S1024_S1024x1) broadcasts_S1024x1_S1024x1024 (ix2 k q) * wb (ix2 k q)) = _
  rw [column_repeat_apply, column_apply]
  rfl

/-- The closing, at `(p, q)`: the accumulator there plus the bias at `q`. -/
theorem closing_apply (acc : Vec Ideal S1024x1024 .f32) (bb : Vec Ideal S1024 .f32) (p q : Fin 1024) :
    k0_pay3 acc bb (ix2 p q) = acc (ix2 p q) + bb (ix1 q) := by
  unfold k0_pay3
  rw [addf_apply, broadcastTo_1b_ab_apply, shapeCast_a_1a_apply]

end Cert.KernelIdeal.Blocks

end
-- ==== Proof.Pieces.lean ====
/-
  What one run of the kernel's body leaves behind, in the two ways the body can run.

  At an even grid point (the first visit of an output tile) the body resets the accumulator tile to zero and then runs
  the step on it: the accumulator is left at the step of the zero tile. At an odd grid point (the second and last visit)
  the body runs the step on the accumulator tile it finds, leaves the result in the accumulator, and writes that result
  plus the bias tile to the output tile. These equations hold for any reading of the float operations.
-/
import proofs.«156901_j83966610637560_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a; rfl

/-- First visit: the accumulator is left at the step of the zero tile. -/
theorem first_visit_acc (c : Dev nD) (i : grid0.Coords) (a3 : Memref sig .tc .vmem S1024x1024 .f32) (h3 : a3.IsWhole) (a4 : Memref sig .tc .vmem S1024x1024 .f32) (h4 : a4.IsWhole) (a5 : Memref sig .tc .vmem S1024 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x1024 .f32) (x1 : Vec F S1024x1024 .f32) (x2 : Vec F S1024 .i32) (x3 : Vec F S1024 .f32) :
    sout0_A_0 c i a3 h3 a4 h4 a5 h5 a6 h6 a7 h7 a8 h8 hc0 hc1 x0 x1 x2 x3 = k0_pay2 x2 x1 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, h5.read_unread, View.ld_unit_zero (S := S1024x1024) origin2,
    View.ld_unit_zero (S := S1024) origin1]

/-- Last visit: the accumulator is left at the step of what it held. -/
theorem last_visit_acc (c : Dev nD) (i : grid0.Coords) (a3 : Memref sig .tc .vmem S1024x1024 .f32) (h3 : a3.IsWhole) (a4 : Memref sig .tc .vmem S1024x1024 .f32) (h4 : a4.IsWhole) (a5 : Memref sig .tc .vmem S1024 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .f32) (x2 : Vec F S1024 .i32) (x3 : Vec F S1024 .f32) (xs0 : Vec F S1024x1024 .f32) :
    sout0_B_0 c i a3 h3 a4 h4 a5 h5 a6 h6 a7 h7 a8 h8 hc0 hc1 x0 x1 x2 x3 xs0 = k0_pay2 x2 x1 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero (S := S1024x1024) origin2]
  simp only [View.readAt_eq_ld, h3.read_unread, h4.read_unread, h5.read_unread, h8.read_unread,
    View.ld_unit_zero (S := S1024x1024) origin2, View.ld_unit_zero (S := S1024) origin1]

/-- Last visit: the output tile is left at the stepped accumulator plus the bias tile. -/
theorem last_visit_out (c : Dev nD) (i : grid0.Coords) (a3 : Memref sig .tc .vmem S1024x1024 .f32) (h3 : a3.IsWhole) (a4 : Memref sig .tc .vmem S1024x1024 .f32) (h4 : a4.IsWhole) (a5 : Memref sig .tc .vmem S1024 .i32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x1024 .f32) (x1 : Vec F S1024x1024 .f32) (x2 : Vec F S1024 .i32) (x3 : Vec F S1024 .f32) (xs0 : Vec F S1024x1024 .f32) :
    out0_B_4 c i a3 h3 a4 h4 a5 h5 a6 h6 a7 h7 a8 h8 hc0 hc1 x0 x1 x2 x3 xs0 = k0_pay3 (k0_pay2 x2 x1 x0 xs0) x3 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  sl_unfold_words
  rw [View.canon_unit_zero (S := S1024x1024) origin2, View.readCov_unit_zero (S := S1024x1024) _ origin2]
  simp only [View.readAt_eq_ld, h3.read_unread, h4.read_unread, h5.read_unread, h6.read_unread, h8.read_unread,
    View.ld_unit_zero (S := S1024x1024) origin2, View.ld_unit_zero (S := S1024) origin1]

end Cert.KernelIdeal.Pieces

end
-- ==== Proof.KernelValue.lean ====
/-
  The kernel's result array over the extended reals: the masked dense layer of its argument arrays.

  The grid has 8 × 2 × 2 points; point `t` works on row tile `t / 4`, column tile `(t / 2) % 2` and contraction half
  `t % 2`. The two visits of an output tile are consecutive points, an even one and the odd one after it. After the odd
  point the output tile holds, at row `p` and column `q` of the tile,

      ((0 + ∑ₖ x₀ p k · (mask₀ k · w₀ k q)) + ∑ₖ x₁ p k · (mask₁ k · w₁ k q)) + bias q

  where the tiles with index 0 are the ones the even point read (the first 1024 positions of the contraction) and those
  with index 1 the ones the odd point read (the last 1024). Each tile entry is the argument array's entry at the tile's
  offset, so this is the layer's value at row `1024·(t / 4) + p` and column `1024·((t / 2) % 2) + q`. The output tiles
  of the sixteen odd points cover the result array, which therefore holds the layer's value everywhere.
-/
import proofs.«156901_j83966610637560_1_alg».proof.Proof.Gen.KernelIdeal.Value
import proofs.«156901_j83966610637560_1_alg».proof.Proof.MaskedDense
import proofs.«156901_j83966610637560_1_alg».proof.Proof.Blocks
import proofs.«156901_j83966610637560_1_alg».proof.Proof.Pieces
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Cert.MaskedDense
open Idealize.ShloMosaic.Pipeline (Dat)

variable (m : (ℓ : Loc nD τ sig) → Buf (Elt Ideal) ℓ) (ρ : Dev nD → PrngReg)

/-! ## The argument arrays and the tiles a point reads, by their literal types -/

abbrev argX (c : Dev nD) : Vec Ideal S8192x2048 .f32 := m ((c : Thread nD τ).loc main_arg0)
abbrev argM (c : Dev nD) : Vec Ideal S2048x2048 .f32 := m ((c : Thread nD τ).loc main_arg1)
abbrev argB (c : Dev nD) : Vec Ideal S2048 .f32 := m ((c : Thread nD τ).loc main_arg2)
abbrev argK (c : Dev nD) : Vec Ideal S2048 .i32 := m ((c : Thread nD τ).loc main_arg3)

abbrev xTile (c : Dev nD) (t : Fin cfg0.N) : Vec Ideal S1024x1024 .f32 := iblk m c 0 t
abbrev wTile (c : Dev nD) (t : Fin cfg0.N) : Vec Ideal S1024x1024 .f32 := iblk m c 1 t
abbrev kTile (c : Dev nD) (t : Fin cfg0.N) : Vec Ideal S1024 .i32 := iblk m c 2 t
abbrev bTile (c : Dev nD) (t : Fin cfg0.N) : Vec Ideal S1024 .f32 := iblk m c 3 t

/-- The layer's value of the argument arrays, as contents of the result array. -/
abbrev result (c : Dev nD) : Buf (Elt Ideal) ((c : Thread nD τ).loc main_v0) :=
  dense (argX m c) (argM m c) (argB m c) (argK m c)

/-! ## Which tile each window is on at point `t` -/

theorem tile_of_point : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 1) = t.val % 2
    ∧ win0_3.index t (0 : Fin 1) = t.val / 2 % 2
    ∧ win0_4.index t (0 : Fin 2) = t.val / 4 ∧ win0_4.index t (1 : Fin 2) = t.val / 2 % 2 :=
  (by decide +kernel : ∀ t : Fin grid0.N, _)

/-! ## A tile's entry is the array's entry at the tile's offset -/

theorem xTile_apply (c : Dev nD) (t : Fin cfg0.N) (p k : Fin 1024) (r : Fin 8192) (kk : Fin 2048)
    (hr : r.val = 1024 * (t.val / 4) + p.val) (hk : kk.val = 1024 * (t.val % 2) + k.val) :
    xTile m c t (ix2 p k) = argX m c (ix2 r kk) := by
  obtain ⟨e0, e1, -⟩ := tile_of_point t
  show ((cfg0.win 0).blk t).view.read (Elt Ideal) (V m c (Pipeline.arrRef spec0 0)) (ix2 p k) = _
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * p.val = r.val; omega
  | ⟨1, _⟩ => show win0_0.index t (1 : Fin 2) * 1024 + 1 * k.val = kk.val; omega

theorem wTile_apply (c : Dev nD) (t : Fin cfg0.N) (k q : Fin 1024) (kk cc : Fin 2048)
    (hk : kk.val = 1024 * (t.val % 2) + k.val) (hc : cc.val = 1024 * (t.val / 2 % 2) + q.val) :
    wTile m c t (ix2 k q) = argM m c (ix2 kk cc) := by
  obtain ⟨-, -, e2, e3, -⟩ := tile_of_point t
  show ((cfg0.win 1).blk t).view.read (Elt Ideal) (V m c (Pipeline.arrRef spec0 1)) (ix2 k q) = _
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * k.val = kk.val; omega
  | ⟨1, _⟩ => show win0_1.index t (1 : Fin 2) * 1024 + 1 * q.val = cc.val; omega

theorem kTile_apply (c : Dev nD) (t : Fin cfg0.N) (k : Fin 1024) (kk : Fin 2048)
    (hk : kk.val = 1024 * (t.val % 2) + k.val) :
    kTile m c t (ix1 k) = argK m c (ix1 kk) := by
  obtain ⟨-, -, -, -, e4, -⟩ := tile_of_point t
  show ((cfg0.win 2).blk t).view.read (Elt Ideal) (V m c (Pipeline.arrRef spec0 2)) (ix1 k) = _
  rw [View.read_apply]
  show m ((c : Thread nD τ).loc main_arg3) _ = m ((c : Thread nD τ).loc main_arg3) _
  congr 1
  funext a
  apply Fin.ext
  match a with
  | ⟨0, _⟩ => show win0_2.index t (0 : Fin 1) * 1024 + 1 * k.val = kk.val; omega

theorem bTile_apply (c : Dev nD) (t : Fin cfg0.N) (q : Fin 1024) (cc : Fin 2048)
    (hc : cc.val = 1024 * (t.val / 2 % 2) + q.val) :
    bTile m c t (ix1 q) = argB m c (ix1 cc) := by
  obtain ⟨-, -, -, -, -, e5, -⟩ := tile_of_point t
  show ((cfg0.win 3).blk t).view.read (Elt Ideal) (V m c (Pipeline.arrRef spec0 3)) (ix1 q) = _
  rw [View.read_apply]
  show m ((c : Thread nD τ).loc main_arg2) _ = m ((c : Thread nD τ).loc main_arg2) _
  congr 1
  funext a
  apply Fin.ext
  match a with
  | ⟨0, _⟩ => show win0_3.index t (0 : Fin 1) * 1024 + 1 * q.val = cc.val; omega

/-! ## The output tile after its two visits -/

/-- Entry `(p, q)` of the output tile after the even point `t'` and the odd point `t` that follows it is the layer's value
    at the array position under that entry. -/
theorem two_visits_apply (c : Dev nD) (t t' : Fin cfg0.N) (h1 : t.val % 2 = 1) (ht' : t'.val + 1 = t.val)
    (p q : Fin 1024) (r : Fin 8192) (cc : Fin 2048)
    (hr : r.val = 1024 * (t.val / 4) + p.val) (hc : cc.val = 1024 * (t.val / 2 % 2) + q.val) :
    k0_pay3 (k0_pay2 (kTile m c t) (wTile m c t) (xTile m c t)
        (k0_pay2 (kTile m c t') (wTile m c t') (xTile m c t') (k0_pay1 (F := Ideal)))) (bTile m c t) (ix2 p q)
      = entry (argX m c) (argM m c) (argB m c) (argK m c) r cc := by
  rw [Blocks.closing_apply, Blocks.step_apply, Blocks.step_apply, Blocks.reset_apply]
  exact entry_of_halves (argX m c) (argM m c) (argB m c) (argK m c) r cc
    (fun k => xTile m c t' (ix2 p k)) (fun k => xTile m c t (ix2 p k))
    (fun k => wTile m c t' (ix2 k q)) (fun k => wTile m c t (ix2 k q))
    (fun k => kTile m c t' (ix1 k)) (fun k => kTile m c t (ix1 k)) (bTile m c t (ix1 q))
    (fun k => xTile_apply m c t' p k r (lo k) (by omega) (by show k.val = 1024 * (t'.val % 2) + k.val; omega))
    (fun k => xTile_apply m c t p k r (hi k) hr (by show 1024 + k.val = 1024 * (t.val % 2) + k.val; omega))
    (fun k => kTile_apply m c t' k (lo k) (by show k.val = 1024 * (t'.val % 2) + k.val; omega))
    (fun k => kTile_apply m c t k (hi k) (by show 1024 + k.val = 1024 * (t.val % 2) + k.val; omega))
    (fun k => wTile_apply m c t' k q (lo k) cc (by show k.val = 1024 * (t'.val % 2) + k.val; omega) (by omega))
    (fun k => wTile_apply m c t k q (hi k) cc (by show 1024 + k.val = 1024 * (t.val % 2) + k.val; omega) hc)
    (bTile_apply m c t q cc hc)

/-! ## What an odd point writes back, and the array after the run -/

/-- The write-back of an odd point is the layer's value read through the point's output tile. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  have h0 : ¬t.val % 2 = 0 := by omega
  have hp : t.val - 1 < cfg0.N := Nat.lt_of_le_of_lt (Nat.sub_le _ _) t.isLt
  obtain ⟨-, -, -, -, -, -, e6, e7⟩ := tile_of_point t
  rw [Value.flushed4_B m c t h0 h1, Pieces.last_visit_out]
  rw [outsAt0_A m c ⟨t.val - 1, hp⟩ (by show (t.val - 1) % 2 = 0; omega) (by show ¬(t.val - 1) % 2 = 1; omega)]
  dsimp only
  rw [Pieces.first_visit_acc]
  funext j
  obtain ⟨p, q, rfl⟩ : ∃ (p q : Fin 1024), j = ix2 p q := ⟨j 0, j 1, eq_ix2 (n0 := 1024) (n1 := 1024) j⟩
  rw [View.read_apply]
  show k0_pay3 (k0_pay2 (kTile m c t) (wTile m c t) (xTile m c t)
      (k0_pay2 (kTile m c ⟨t.val - 1, hp⟩) (wTile m c ⟨t.val - 1, hp⟩) (xTile m c ⟨t.val - 1, hp⟩) (k0_pay1 (F := Ideal))))
      (bTile m c t) (ix2 p q) = result m c (((cfg0.win 4).blk t).view.emb (ix2 p q))
  refine two_visits_apply m c t ⟨t.val - 1, hp⟩ h1 (by show t.val - 1 + 1 = t.val; omega) p q _ _ ?_ ?_
  · show win0_4.index t (0 : Fin 2) * 1024 + 1 * p.val = 1024 * (t.val / 4) + p.val
    omega
  · show win0_4.index t (1 : Fin 2) * 1024 + 1 * q.val = 1024 * (t.val / 2 % 2) + q.val
    omega

/-- An array position lies in point `t`'s output tile exactly when each coordinate lies in the tile's range. -/
theorem mem_tile (t : Fin cfg0.N) (i : S8192x2048.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every array position lies in the output tile of an odd point: the one of its row tile and column tile. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 32 := N_0
  obtain ⟨t, ht⟩ : ∃ t : Fin cfg0.N, t.val = 4 * ((i 0).val / 1024) + 2 * ((i 1).val / 1024) + 1 :=
    ⟨⟨4 * ((i 0).val / 1024) + 2 * ((i 1).val / 1024) + 1, by rw [hN]; omega⟩, rfl⟩
  obtain ⟨-, -, -, -, -, -, e6, e7⟩ := tile_of_point t
  refine ⟨t, (flush0_4 t).mpr (by omega), ?_⟩
  rw [mem_tile]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- After the run the result array holds the layer's value of the argument arrays. -/
theorem final (c : Dev nD) : (dats m 0 c).arrAt 4 cfg0.N = result m c :=
  (dats m 0 c).arrAt_eq_of_cover 4 (result m c) (flushed_eq m c) cover

/-- The kernel's run: it terminates with the result array at the layer's value and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Dense

end
-- ==== Proof.Reference.lean ====
/-
  The reference computes the masked dense layer.

  Its eight operations turn the mask words into numbers, lay them out as a column repeated along the columns of the
  weights, multiply the weights by that, contract the input's rows with the result's columns, and add the bias laid out
  as a row repeated along the rows. Read at row `r` and column `c`, the last operation's value is
  `(∑ₖ X r k · (mask k · M k c)) + b c`: the contraction as a sum over its 2048 positions, each layout step read at the
  one position of its operand it copies.
-/
import proofs.«156901_j83966610637560_1_alg».proof.Proof.Gen.ReferenceIdeal.Read
import proofs.«156901_j83966610637560_1_alg».proof.Proof.MaskedDense

noncomputable section

namespace Cert.ReferenceIdeal.Dense

open Cert.ReferenceIdeal Cert.ReferenceIdeal.Gen Cert.ReferenceIdeal.Read Idealize.ShloMosaic
open Idealize.ShloMosaic.ValueIdx Cert.MaskedDense

/-- The contraction's left operand position at result `(r, c)` and position `k` is `(r, k)`. -/
theorem left_position (r : Fin 8192) (c k : Fin 2048) : lidx_main_v4 (ix2 r c) k = ix2 r k :=
  funext fun a => Fin.ext (by match a with | ⟨0, _⟩ => rfl | ⟨1, _⟩ => rfl)

/-- Its right operand position is `(k, c)`. -/
theorem right_position (r : Fin 8192) (c k : Fin 2048) : ridx_main_v4 (ix2 r c) k = ix2 k c :=
  funext fun a => Fin.ext (by match a with | ⟨0, _⟩ => rfl | ⟨1, _⟩ => rfl)

/-- The mask laid out over the weights reads, at `(k, c)`, the mask at `k`. -/
theorem mask_position (c k : Fin 2048) : idx_main_v1 (idx_main_v2 (ix2 k c)) = ix1 k :=
  funext fun a => Fin.ext (by match a with | ⟨0, _⟩ => rfl)

/-- The bias laid out over the result reads, at `(r, c)`, the bias at `c`. -/
theorem bias_position (r : Fin 8192) (c : Fin 2048) : idx_main_v5 (idx_main_v6 (ix2 r c)) = ix1 c :=
  funext fun a => Fin.ext (by match a with | ⟨0, _⟩ => rfl)

/-- The reference's last value is the layer's value of its arguments. -/
theorem reference_eq (x0 : (⟨S8192x2048, .f32⟩ : BufTy).Contents (Elt Ideal)) (x1 : (⟨S2048x2048, .f32⟩ : BufTy).Contents (Elt Ideal))
    (x2 : (⟨S2048, .f32⟩ : BufTy).Contents (Elt Ideal)) (x3 : (⟨S2048, .i32⟩ : BufTy).Contents (Elt Ideal)) :
    val_main_v7 (F := Ideal) x0 x1 x2 x3 = dense x0 x1 x2 x3 := by
  funext i
  obtain ⟨r, c, rfl⟩ : ∃ (r : Fin 8192) (c : Fin 2048), i = ix2 r c := ⟨i 0, i 1, eq_ix2 i⟩
  rw [val_main_v7_apply, val_main_v4_apply, val_main_v6_apply, val_main_v5_apply, bias_position]
  show (∑ k : Fin 2048, x0 (lidx_main_v4 (ix2 r c) k) * val_main_v3 (F := Ideal) x1 x3 (ridx_main_v4 (ix2 r c) k)) + x2 (ix1 c)
    = entry x0 x1 x2 x3 r c
  unfold entry
  refine congrArg (· + x2 (ix1 c)) (Finset.sum_congr rfl fun k _ => ?_)
  rw [left_position, right_position, val_main_v3_apply, val_main_v2_apply, val_main_v1_apply, val_main_v0_apply, mask_position]
  rfl

end Cert.ReferenceIdeal.Dense

end
-- ==== Proof.lean ====
/-
  A dense layer with masked weight rows, computed tile by tile, against its one-line definition.

  The kernel computes `X · (diag(mask) · M) + b` for `X` [8192, 2048], `M` [2048, 2048], `b` [2048] and an integer mask
  [2048]. Its grid visits every 1024 × 1024 output tile twice, once per half of the contraction axis: the first visit
  zeroes an accumulator tile and adds the product of the input tile with the masked weight tile of the first half, the
  second adds the product for the second half and writes the accumulator plus the bias tile out. The reference multiplies
  the weights by the mask laid out over them, contracts the input with the result in one product, and adds the bias.

  Over the extended reals the two narrowings of the kernel's operands to a 16-bit format are the identity and a tile
  product into a zero tile is the plain sum over the tile's contraction positions, so the kernel's output entry is
  `((0 + ∑ first half) + ∑ second half) + bias` while the reference's is `(∑ all 2048 positions) + bias`, the summands
  `X r k · (mask k · M k c)` being the same terms. A sum over 2048 positions is the sum over its first 1024 plus the
  sum over its last 1024, and `0 + x = x`: nothing more is needed, and no operand has to be finite, so the precondition
  is never opened.

  The modules: MaskedDense (the layer's value as one array, and the law of the two halves), Blocks (the body's three
  stored tiles read entry by entry), Pieces (what one run of the body leaves in the accumulator and in the output
  tile), KernelValue (the tiles are the arguments at their offsets; the output tiles cover the result array; the
  kernel's run), Reference (the reference's operations read at an entry). The kernel over the extended reals is the word-level
  kernel's own text with no operation rewritten, so the claim that relates the two has nothing to state.
-/
import proofs.«156901_j83966610637560_1_alg».proof.Defs
import proofs.«156901_j83966610637560_1_alg».proof.Proof.Gen.Kernel
import proofs.«156901_j83966610637560_1_alg».proof.Proof.Gen.Kernel.Skeleton
import proofs.«156901_j83966610637560_1_alg».proof.Proof.Gen.Kernel.Launch
import proofs.«156901_j83966610637560_1_alg».proof.Proof.Gen.Kernel.Points
import proofs.«156901_j83966610637560_1_alg».proof.Proof.Gen.Kernel.Frame
import proofs.«156901_j83966610637560_1_alg».proof.Proof.Gen.KernelIdeal
import proofs.«156901_j83966610637560_1_alg».proof.Proof.Gen.KernelIdeal.Skeleton
import proofs.«156901_j83966610637560_1_alg».proof.Proof.Gen.KernelIdeal.Launch
import proofs.«156901_j83966610637560_1_alg».proof.Proof.Gen.KernelIdeal.Points
import proofs.«156901_j83966610637560_1_alg».proof.Proof.Gen.KernelIdeal.Frame
import proofs.«156901_j83966610637560_1_alg».proof.Proof.Gen.KernelIdeal.Value
import proofs.«156901_j83966610637560_1_alg».proof.Proof.Gen.ReferenceIdeal
import proofs.«156901_j83966610637560_1_alg».proof.Proof.Gen.ReferenceIdeal.Run
import proofs.«156901_j83966610637560_1_alg».proof.Proof.Gen.ReferenceIdeal.Read
import proofs.«156901_j83966610637560_1_alg».proof.Proof.Gen.Pre_finite_inputs
import proofs.«156901_j83966610637560_1_alg».proof.Proof.KernelValue
import proofs.«156901_j83966610637560_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer's value of those arguments in
    their result arrays: the kernel by its tiles (`KernelIdeal.Dense.run`), the reference by its operations read at an
    entry (`ReferenceIdeal.Dense.reference_eq`). -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Dense.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
